-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S27x64x64 : Shape := ⟨3, ![27, 64, 64]⟩
abbrev S64 : Shape := ⟨1, ![64]⟩
abbrev S1350000 : Shape := ⟨1, ![1350000]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S150000x64 .f32) (main_arg1 : FVec F S27x64x64 .f32) (main_arg2 : FVec F S64 .f32) (main_arg3 : IVec S1350000 32) (main_arg4 : IVec S1350000 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S150000x64 : Shape := ⟨2, ![150000, 64]⟩
abbrev S27x64x64 : Shape := ⟨3, ![27, 64, 64]⟩
abbrev S64 : Shape := ⟨1, ![64]⟩
abbrev S1350000 : Shape := ⟨1, ![1350000]⟩
abbrev S_ : Shape := ⟨0, ![]⟩
abbrev S1350000x1 : Shape := ⟨2, ![1350000, 1]⟩
abbrev S1350000x64 : Shape := ⟨2, ![1350000, 64]⟩
abbrev S27x50000x64 : Shape := ⟨3, ![27, 50000, 64]⟩
abbrev S1x10000x64 : Shape := ⟨3, ![1, 10000, 64]⟩
abbrev S1x64x64 : Shape := ⟨3, ![1, 64, 64]⟩
abbrev S10000x64 : Shape := ⟨2, ![10000, 64]⟩
abbrev S64x64 : Shape := ⟨2, ![64, 64]⟩
abbrev S1x64 : Shape := ⟨2, ![1, 64]⟩

abbrev nBuf : Space → Nat
  | .hbm => 33
  | .vmem => 6
  | .smem => 0
  | _ => 0

abbrev bufTy : (tb : Table) → Fin (tcTables nBuf tb) → BufTy
  | .hbm, ⟨0, _⟩ => ⟨S150000x64, .f32⟩
  | .hbm, ⟨1, _⟩ => ⟨S27x64x64, .f32⟩
  | .hbm, ⟨2, _⟩ => ⟨S64, .f32⟩
  | .hbm, ⟨3, _⟩ => ⟨S1350000, .i32⟩
  | .hbm, ⟨4, _⟩ => ⟨S1350000, .i32⟩
  | .hbm, ⟨5, _⟩ => ⟨S150000x64, .bf16⟩
  | .hbm, ⟨6, _⟩ => ⟨S27x64x64, .bf16⟩
  | .hbm, ⟨7, _⟩ => ⟨S_, .i32⟩
  | .hbm, ⟨8, _⟩ => ⟨S1350000, .i32⟩
  | .hbm, ⟨9, _⟩ => ⟨S1350000, .i1⟩
  | .hbm, ⟨10, _⟩ => ⟨S_, .i32⟩
  | .hbm, ⟨11, _⟩ => ⟨S1350000, .i32⟩
  | .hbm, ⟨12, _⟩ => ⟨S1350000, .i32⟩
  | .hbm, ⟨13, _⟩ => ⟨S1350000, .i32⟩
  | .hbm, ⟨14, _⟩ => ⟨S1350000x1, .i32⟩
  | .hbm, ⟨15, _⟩ => ⟨S1350000x64, .bf16⟩
  | .hbm, ⟨16, _⟩ => ⟨S27x50000x64, .bf16⟩
  | .hbm, ⟨17, _⟩ => ⟨S27x50000x64, .f32⟩
  | .hbm, ⟨18, _⟩ => ⟨S1350000x64, .f32⟩
  | .hbm, ⟨19, _⟩ => ⟨S_, .f32⟩
  | .hbm, ⟨20, _⟩ => ⟨S150000x64, .f32⟩
  | .hbm, ⟨21, _⟩ => ⟨S_, .i32⟩
  | .hbm, ⟨22, _⟩ => ⟨S1350000, .i32⟩
  | .hbm, ⟨23, _⟩ => ⟨S1350000, .i1⟩
  | .hbm, ⟨24, _⟩ => ⟨S_, .i32⟩
  | .hbm, ⟨25, _⟩ => ⟨S1350000, .i32⟩
  | .hbm, ⟨26, _⟩ => ⟨S1350000, .i32⟩
  | .hbm, ⟨27, _⟩ => ⟨S1350000, .i32⟩
  | .hbm, ⟨28, _⟩ => ⟨S1350000x1, .i32⟩
  | .hbm, ⟨29, _⟩ => ⟨S150000x64, .f32⟩
  | .hbm, ⟨30, _⟩ => ⟨S1x64, .f32⟩
  | .hbm, ⟨31, _⟩ => ⟨S150000x64, .f32⟩
  | .hbm, ⟨32, _⟩ => ⟨S150000x64, .f32⟩
  | .local _ .vmem, ⟨0, _⟩ => ⟨S1x10000x64, .bf16⟩
  | .local _ .vmem, ⟨1, _⟩ => ⟨S1x10000x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x10000x64, .f32⟩
  | .local _ .vmem, ⟨5, _⟩ => ⟨S1x10000x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  bcast_S_S1350000 : S_.BroadcastsInDim S1350000 (![] : Fin 0 → Fin S1350000.rank)
  bcast_S1350000_S1350000x1_0 : S1350000.BroadcastsInDim S1350000x1 (![0] : Fin 1 → Fin S1350000x1.rank)
  shapeCasts_S1350000x64_S27x50000x64 : S1350000x64.ShapeCasts S27x50000x64
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S10000x64_S1x10000x64 : S10000x64.ShapeCasts S1x10000x64
  shapeCasts_S27x50000x64_S1350000x64 : S27x50000x64.ShapeCasts S1350000x64
  bcast_S_S150000x64 : S_.BroadcastsInDim S150000x64 (![] : Fin 0 → Fin S150000x64.rank)
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  gather_S150000x64_S1350000x1_S1350000x64_1_0_n_n_0_1_164_wf : GatherDims.WF S150000x64 S1350000x1 S1350000x64 [1] [0] [] [0] [] 1 ![1, 64]
  dot_S10000x64_S64x64_S10000x64_1_0_0_1_n_n_wf : DotDims.WF S10000x64 S64x64 S10000x64 [1] [0] [0] [1] [] []
  scatter_S150000x64_S1350000x1_S1350000x64_1_0_0_1_wf : ScatterDims.WF S150000x64 S1350000x1 S1350000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x64.size a ≤ S27x50000x64.size a
  hwx0_0 : ∀ i : grid0.Coords, EltTy.bits .bf16 = 32 ∨ (Rect.block (s := S27x50000x64) S1x10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .bf16 = 32 ∨ (Rect.block (s := S27x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x64.size a ≤ S27x50000x64.size a
  hwx0_2 : ∀ i : grid0.Coords, EltTy.bits .f32 = 32 ∨ (Rect.block (s := S27x50000x64) S1x10000x64.size (cc0_transform_2 i) (hinb0_2 i)).WholeWords (EltTy.packing .f32)

variable [Facts₀]

def gather_S150000x64_S1350000x1_S1350000x64_1_0_n_n_0_1_164 : GatherDims S150000x64 S1350000x1 S1350000x64 where
  offsetDims := [1]
  collapsedSliceDims := [0]
  operandBatchingDims := []
  startIndicesBatchingDims := []
  startIndexMap := [0]
  indexVectorDim := 1
  sliceSizes := ![1, 64]
  wf := gather_S150000x64_S1350000x1_S1350000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S150000x64_S1350000x1_S1350000x64_1_0_0_1 : ScatterDims S150000x64 S1350000x1 S1350000x64 where
  updateWindowDims := [1]
  insertedWindowDims := [0]
  scatterDimsToOperandDims := [0]
  indexVectorDim := 1
  wf := scatter_S150000x64_S1350000x1_S1350000x64_1_0_0_1_wf

abbrev win0_0 : Pipeline.Window sig grid0 :=
  Pipeline.Window.ofSpec (Memref.whole main_v9) S1x10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S150000x64 : Shape := ⟨2, ![150000, 64]⟩
abbrev S27x64x64 : Shape := ⟨3, ![27, 64, 64]⟩
abbrev S64 : Shape := ⟨1, ![64]⟩
abbrev S1350000 : Shape := ⟨1, ![1350000]⟩
abbrev S_ : Shape := ⟨0, ![]⟩
abbrev S1350000x1 : Shape := ⟨2, ![1350000, 1]⟩
abbrev S1350000x64 : Shape := ⟨2, ![1350000, 64]⟩
abbrev S27x50000x64 : Shape := ⟨3, ![27, 50000, 64]⟩
abbrev S1x64 : Shape := ⟨2, ![1, 64]⟩

abbrev nBuf : Space → Nat
  | .hbm => 31
  | .vmem => 0
  | .smem => 0
  | _ => 0

abbrev bufTy : (tb : Table) → Fin (tcTables nBuf tb) → BufTy
  | .hbm, ⟨0, _⟩ => ⟨S150000x64, .f32⟩
  | .hbm, ⟨1, _⟩ => ⟨S27x64x64, .f32⟩
  | .hbm, ⟨2, _⟩ => ⟨S64, .f32⟩
  | .hbm, ⟨3, _⟩ => ⟨S1350000, .i32⟩
  | .hbm, ⟨4, _⟩ => ⟨S1350000, .i32⟩
  | .hbm, ⟨5, _⟩ => ⟨S_, .i32⟩
  | .hbm, ⟨6, _⟩ => ⟨S1350000, .i32⟩
  | .hbm, ⟨7, _⟩ => ⟨S1350000, .i1⟩
  | .hbm, ⟨8, _⟩ => ⟨S_, .i32⟩
  | .hbm, ⟨9, _⟩ => ⟨S1350000, .i32⟩
  | .hbm, ⟨10, _⟩ => ⟨S1350000, .i32⟩
  | .hbm, ⟨11, _⟩ => ⟨S1350000, .i32⟩
  | .hbm, ⟨12, _⟩ => ⟨S1350000x1, .i32⟩
  | .hbm, ⟨13, _⟩ => ⟨S1350000x64, .f32⟩
  | .hbm, ⟨14, _⟩ => ⟨S27x50000x64, .f32⟩
  | .hbm, ⟨15, _⟩ => ⟨S27x50000x64, .f32⟩
  | .hbm, ⟨16, _⟩ => ⟨S_, .f32⟩
  | .hbm, ⟨17, _⟩ => ⟨S150000x64, .f32⟩
  | .hbm, ⟨18, _⟩ => ⟨S1350000x64, .f32⟩
  | .hbm, ⟨19, _⟩ => ⟨S_, .i32⟩
  | .hbm, ⟨20, _⟩ => ⟨S1350000, .i32⟩
  | .hbm, ⟨21, _⟩ => ⟨S1350000, .i1⟩
  | .hbm, ⟨22, _⟩ => ⟨S_, .i32⟩
  | .hbm, ⟨23, _⟩ => ⟨S1350000, .i32⟩
  | .hbm, ⟨24, _⟩ => ⟨S1350000, .i32⟩
  | .hbm, ⟨25, _⟩ => ⟨S1350000, .i32⟩
  | .hbm, ⟨26, _⟩ => ⟨S1350000x1, .i32⟩
  | .hbm, ⟨27, _⟩ => ⟨S150000x64, .f32⟩
  | .hbm, ⟨28, _⟩ => ⟨S1x64, .f32⟩
  | .hbm, ⟨29, _⟩ => ⟨S150000x64, .f32⟩
  | .hbm, ⟨30, _⟩ => ⟨S150000x64, .f32⟩
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S1350000 : S_.BroadcastsInDim S1350000 (![] : Fin 0 → Fin S1350000.rank)
  bcast_S1350000_S1350000x1_0 : S1350000.BroadcastsInDim S1350000x1 (![0] : Fin 1 → Fin S1350000x1.rank)
  shapeCasts_S1350000x64_S27x50000x64 : S1350000x64.ShapeCasts S27x50000x64
  bcast_S_S150000x64 : S_.BroadcastsInDim S150000x64 (![] : Fin 0 → Fin S150000x64.rank)
  shapeCasts_S27x50000x64_S1350000x64 : S27x50000x64.ShapeCasts S1350000x64
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  gather_S150000x64_S1350000x1_S1350000x64_1_0_n_n_0_1_164_wf : GatherDims.WF S150000x64 S1350000x1 S1350000x64 [1] [0] [] [0] [] 1 ![1, 64]
  dot_S27x50000x64_S27x64x64_S27x50000x64_2_1_1_2_0_0_wf : DotDims.WF S27x50000x64 S27x64x64 S27x50000x64 [2] [1] [1] [2] [0] [0]
  scatter_S150000x64_S1350000x1_S1350000x64_1_0_0_1_wf : ScatterDims.WF S150000x64 S1350000x1 S1350000x64 [1] [0] [0] 1

variable [Facts₀]

def gather_S150000x64_S1350000x1_S1350000x64_1_0_n_n_0_1_164 : GatherDims S150000x64 S1350000x1 S1350000x64 where
  offsetDims := [1]
  collapsedSliceDims := [0]
  operandBatchingDims := []
  startIndicesBatchingDims := []
  startIndexMap := [0]
  indexVectorDim := 1
  sliceSizes := ![1, 64]
  wf := gather_S150000x64_S1350000x1_S1350000x64_1_0_n_n_0_1_164_wf
def dot_S27x50000x64_S27x64x64_S27x50000x64_2_1_1_2_0_0 : DotDims S27x50000x64 S27x64x64 S27x50000x64 where
  lhsContracting := [2]
  rhsContracting := [1]
  lhsNonContracting := [1]
  rhsNonContracting := [2]
  lhsBatch := [0]
  rhsBatch := [0]
  wf := dot_S27x50000x64_S27x64x64_S27x50000x64_2_1_1_2_0_0_wf
def scatter_S150000x64_S1350000x1_S1350000x64_1_0_0_1 : ScatterDims S150000x64 S1350000x1 S1350000x64 where
  updateWindowDims := [1]
  insertedWindowDims := [0]
  scatterDimsToOperandDims := [0]
  indexVectorDim := 1
  wf := scatter_S150000x64_S1350000x1_S1350000x64_1_0_0_1_wf

class Facts : Prop extends Facts₀ where

variable [Facts]
-- ==== Proof.OffsetProduct.lean ====
/-
  The arithmetic core of a rulebook sparse convolution. The rulebook has 27 kernel offsets with 50000 rules each;
  rule r of offset k carries one gathered input row g[k, r, ·] of 64 channels, and offset k has its own 64×64 weight
  matrix w[k, ·, ·]. The grouped product multiplies every row by the matrix of its offset:

      out[k, r, o] = Σ_c g[k, r, c] · w[k, c, o].

  It is stated here once, as ONE function of the whole arrays over the extended reals, index by index. Both programs
  compute it: one tile of 10000 rows at a time (a plain 10000×64 by 64×64 product per tile), the other as a single
  product batched over the offsets. Only the grouping of independent entries differs, never the sum itself, so no
  finiteness of the inputs is needed anywhere.
-/
import Idealize.ShloMosaic.Lib.ValueIdx
import Idealize.ShloMosaic.PureOps.Ideal.Laws

noncomputable section

open scoped BigOperators

namespace Cert.SparseConv

open Idealize.ShloMosaic Idealize.ShloMosaic.ValueIdx

/-- The gathered rows, [offset, rule, channel]; also the shape of the product. -/
abbrev Rows : Shape := ⟨3, ![27, 50000, 64]⟩
/-- The weights, [offset, input channel, output channel]. -/
abbrev Mats : Shape := ⟨3, ![27, 64, 64]⟩

/-- Every gathered row times the weight matrix of its offset. -/
def offsetProduct (g : Rows.Idx → EReal) (w : Mats.Idx → EReal) : Rows.Idx → EReal :=
  fun i => ∑ c : Fin 64, g (ix3 (i 0) (i 1) c) * w (ix3 (i 0) c (i 2))

/-- The same at explicit coordinates. -/
theorem offsetProduct_apply (g : Rows.Idx → EReal) (w : Mats.Idx → EReal) (k : Fin 27) (r : Fin 50000) (o : Fin 64) :
    offsetProduct g w (ix3 k r o) = ∑ c : Fin 64, g (ix3 k r c) * w (ix3 k c o) := rfl

end Cert.SparseConv

end
-- ==== Proof.HostSides.lean ====
/-
  The plain array code around the grouped product, as the kernel program runs it.

  Before the region: an index list is made safe the way jnp indexing does it (a negative index counts from the end:
  add 150000; anything else is left alone) and laid out as a column; the input sites are narrowed to bf16 (no change
  of value over the extended reals); the row of each rule is looked up (indices past the ends are clamped by the
  lookup itself) and the 1350000 rows are regrouped as 27 offsets × 50000 rules. The weights are narrowed the same way.

  After the region: the products are flattened back to 1350000 rows, every row is added into the output site its rule
  names, starting from zeros (rows naming the same site accumulate; the exact sum over the extended reals), and the
  bias row is added to every site.
-/
import proofs.«128913_j88373247082550_1_alg».proof.Proof.Gen.KernelIdeal.Frame
import proofs.«128913_j88373247082550_1_alg».proof.Proof.OffsetProduct
import Idealize.ShloMosaic.Lib.StableHlo.Run

noncomputable section

namespace Cert.KernelIdeal.Host

open Cert.KernelIdeal Cert.KernelIdeal.Gen Idealize.ShloMosaic Idealize.ShloMosaic.TcCoe Idealize.ShloMosaic.StableHlo
open Idealize.SL.Sem Cert.SparseConv

/-- An index list made safe for a lookup among 150000 sites (negative counts from the end), as a column. -/
def wrapped (idx : (⟨S1350000, .i32⟩ : BufTy).Contents (Elt Ideal)) : (⟨S1350000x1, .i32⟩ : BufTy).Contents (Elt Ideal) :=
  broadcastInDim S1350000x1 ![0] bcast_S1350000_S1350000x1_0
    (select (cmpi .slt idx (broadcastInDim S1350000 ![] bcast_S_S1350000 (constantI S_ 32 0#32)))
      (addi idx (broadcastInDim S1350000 ![] bcast_S_S1350000 (constantI S_ 32 150000#32))) idx)

/-- Narrowing f32 to bf16, entry by entry (over the extended reals it changes nothing). -/
def narrowed {s : Shape} (x : (⟨s, .f32⟩ : BufTy).Contents (Elt Ideal)) : (⟨s, .bf16⟩ : BufTy).Contents (Elt Ideal) :=
  truncf (F := Ideal) (s := s) (φ := .f32) .bf16 x bitsLt_bf16_f32

/-- The rule's input rows, grouped by offset. -/
def gatheredRows (x : (⟨S150000x64, .f32⟩ : BufTy).Contents (Elt Ideal)) (inIdx : (⟨S1350000, .i32⟩ : BufTy).Contents (Elt Ideal)) :
    (⟨S27x50000x64, .bf16⟩ : BufTy).Contents (Elt Ideal) :=
  shapeCast S27x50000x64
    (Host.gather gather_S150000x64_S1350000x1_S1350000x64_1_0_n_n_0_1_164 (narrowed x) (wrapped inIdx))
    shapeCasts_S1350000x64_S27x50000x64

/-- Scatter-add of the product rows into zeros, plus the bias row on every site. -/
def scattered (vals : (⟨S27x50000x64, .f32⟩ : BufTy).Contents (Elt Ideal)) (bias : (⟨S64, .f32⟩ : BufTy).Contents (Elt Ideal))
    (outIdx : (⟨S1350000, .i32⟩ : BufTy).Contents (Elt Ideal)) : (⟨S150000x64, .f32⟩ : BufTy).Contents (Elt Ideal) :=
  addf
    (Host.scatterAdd scatter_S150000x64_S1350000x1_S1350000x64_1_0_0_1
      (broadcastInDim S150000x64 ![] bcast_S_S150000x64 (constant (F := Ideal) S_ .f32 0x00000000#32))
      (wrapped outIdx)
      (shapeCast S1350000x64 vals shapeCasts_S27x50000x64_S1350000x64))
    (broadcastInDim S150000x64 ![0, 1] bcast_S1x64_S150000x64_0_1 (broadcastInDim S1x64 ![1] bcast_S64_S1x64_1 bias))

variable (m : (ℓ : Loc nD τ sig) → Buf (Elt Ideal) ℓ)

/-- The region finds the gathered rows in its first operand. -/
theorem rows_found (c : Dev nD) :
    V m c main_v9 = gatheredRows (m ((c : Thread nD τ).loc main_arg0)) (m ((c : Thread nD τ).loc main_arg3)) := by
  show StableHlo.after hostOps0 (fun b => m (c, b)) (Proc.devRef .tc main_v9) = _
  after_results
  rfl

/-- And the narrowed weights in its second. -/
theorem mats_found (c : Dev nD) :
    V m c main_v1 = narrowed (m ((c : Thread nD τ).loc main_arg1)) := by
  show StableHlo.after hostOps0 (fun b => m (c, b)) (Proc.devRef .tc main_v1) = _
  after_results
  rfl

set_option maxHeartbeats 2000000 in
/-- The program's result is the scatter of whatever the region left in its result array. -/
theorem result_after (c : Dev nD) :
    Pipeline.afterTail₀ cfgs (dats m) 0 (V0 m) [hostOps1] c main_v22
      = scattered ((dats m 0 c).arrAt 2 cfg0.N) (m ((c : Thread nD τ).loc main_arg2)) (m ((c : Thread nD τ).loc main_arg4)) := by
  unfold Pipeline.afterTail₀
  show StableHlo.after hostOps1 _ (Proc.devRef .tc main_v22) = _
  after_results
  have hA : Pipeline.withArrays (cfgs 0).spec c (V0 m c) (fun w => (dats m 0 c).arrAt w (cfgs 0).N) (Proc.devRef .tc main_v10)
      = (dats m 0 c).arrAt 2 cfg0.N :=
    Pipeline.withArrays_arr spec0 launch0.win.arr_inj c _ _ 2
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [hA, h4, h2]
  rfl

end Cert.KernelIdeal.Host

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.TileProduct.lean ====
/-
  One grid point of the grouped product. The body loads a tile of 10000 gathered rows of one offset (a [1, 10000, 64]
  block) and that offset's weight matrix (a [1, 64, 64] block), drops the leading unit axis of each, multiplies the
  10000×64 tile by the 64×64 matrix into a zero accumulator, and puts the unit axis back before storing. Read at the
  entry (·, r, o) of the stored block, over the extended reals, this is the row-times-column sum

      Σ_c tile(0, r, c) · weights(0, c, o):

  the two casts only rename indices, and a matrix product into zero is the plain sum.
-/
import proofs.«128913_j88373247082550_1_alg».proof.Proof.Gen.KernelIdeal.Skeleton
import proofs.«128913_j88373247082550_1_alg».proof.Proof.LibPlainMatmul
import Idealize.ShloMosaic.Lib.ValueLayout

noncomputable section

open scoped BigOperators

namespace Cert.KernelIdeal.Tile

open Cert.KernelIdeal Cert.KernelIdeal.Gen Idealize.ShloMosaic Idealize.ShloMosaic.ValueIdx

/-- The body's product has no batch axis: left columns against right rows. -/
theorem dot_is_plain : dot_S10000x64_S64x64_S10000x64_1_0_0_1_n_n = DotDims.plain 10000 64 64 := rfl

/-- What the body stores, at the entry (u, r, o) of the output block: row r of the tile against column o of the
    offset's weight matrix. -/
theorem stored_apply (x0 : Vec Ideal S1x10000x64 .bf16) (x1 : Vec Ideal S1x64x64 .bf16)
    (u : Fin 1) (r : Fin 10000) (o : Fin 64) :
    k0_pay1 (F := Ideal) x0 x1 (ix3 u r o)
      = ∑ c : Fin 64, (x0 (ix3 (0 : Fin 1) r c) : EReal) * (x1 (ix3 (0 : Fin 1) c o) : EReal) := by
  unfold k0_pay1
  refine (shapeCast_ab_1ab_apply _ _ u r o).trans ?_
  refine (Idealize.ShloMosaic.LibPlainMatmul.matmul_plain_zero_apply (m := 10000) (k := 64) (n := 64) none
    (shapeCast S10000x64 x0 shapeCasts_S1x10000x64_S10000x64) (shapeCast S64x64 x1 shapeCasts_S1x64x64_S64x64) r o).trans ?_
  refine Finset.sum_congr rfl fun c _ => ?_
  exact congrArg₂ (· * ·) (shapeCast_1ab_ab_apply x0 _ r c) (shapeCast_1ab_ab_apply x1 _ c o)

end Cert.KernelIdeal.Tile

end
-- ==== Proof.RegionResult.lean ====
/-
  The grouped product as the region leaves it. The grid has 27 × 5 points; point (k, b) is handed rows
  10000·b … 10000·b + 9999 of offset k and offset k's weight matrix, and writes back the same rows of the result. So
  what a point writes back is its own block of ONE whole-array function, the offset product of the two operand arrays
  as the region finds them; the 135 blocks are disjoint slabs that together cover the [27, 50000, 64] result (row r of
  offset k lies in the slab of point (k, r / 10000)); hence after the region the result array IS the offset product.
-/
import proofs.«128913_j88373247082550_1_alg».proof.Proof.Gen.KernelIdeal.Frame
import proofs.«128913_j88373247082550_1_alg».proof.Proof.TileProduct
import proofs.«128913_j88373247082550_1_alg».proof.Proof.OffsetProduct
import Idealize.ShloMosaic.Lib.Pipeline.Value

set_option maxRecDepth 16384

noncomputable section

open scoped BigOperators

namespace Cert.KernelIdeal.Region

open Cert.KernelIdeal Cert.KernelIdeal.Gen Idealize.ShloMosaic Idealize.ShloMosaic.TcCoe Idealize.ShloMosaic.ValueIdx
open Idealize.SL.Sem Cert.SparseConv

variable (m : (ℓ : Loc nD τ sig) → Buf (Elt Ideal) ℓ)

/-- The gathered rows as the region finds them, [offset, rule, channel]. -/
abbrev rowsArr (c : Dev nD) : Rows.Idx → EReal := V m c main_v9
/-- The weights as the region finds them, [offset, input channel, output channel]. -/
abbrev matsArr (c : Dev nD) : Mats.Idx → EReal := V m c main_v1

theorem zero3 : (![0, 0, 0] : Fin 3 → Nat) = fun _ => 0 := funext fun a => by fin_cases a <;> rfl

/-- The three index maps over the grid: the rows' block and the result's block sit at the same (offset, slab); the
    weights' block is the offset's whole matrix; no block is split along the channel axis. -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0 :=
  (by decide +kernel : ∀ t : Fin grid0.N, _)

/-- Every (offset, slab) pair is some grid point's. -/
theorem every_slab : ∀ (k : Fin 27) (b : Fin 5), ∃ t : Fin cfg0.N, win0_2.index t = ![k.val, b.val, 0] :=
  (by decide +kernel : ∀ (k : Fin 27) (b : Fin 5), ∃ t : Fin grid0.N, win0_2.index t = ![k.val, b.val, 0])

/-- What point `t` writes back is block `t` of the offset product of the operand arrays. -/
theorem written_back (c : Dev nD) (t : Fin cfg0.N) :
    (dats m 0 c).flushed 2 t = ((cfg0.win 2).blk t).view.read (Elt Ideal) (offsetProduct (rowsArr m c) (matsArr m c)) := by
  show (cfg0.win 2).cut (grid0.coords t) ((dats m 0 c).after 2 t) = _
  rw [after0_2]
  unfold out0_2
  rw [View.canon_unit_zero zero3]
  simp only [View.ld_unit_zero (S := S1x10000x64) zero3, View.ld_unit_zero (S := S1x64x64) zero3]
  obtain ⟨e00, e01, e02, e10, e11, e12, e22⟩ := block_indices t
  funext j
  obtain ⟨u, r, o, rfl⟩ : ∃ (u : Fin 1) (r : Fin 10000) (o : Fin 64), j = ix3 u r o := ⟨j 0, j 1, j 2, eq_ix3 j⟩
  show k0_pay1 (F := Ideal) (iblk m c 0 t) (iblk m c 1 t) (ix3 u r o)
    = offsetProduct (rowsArr m c) (matsArr m c) (((cfg0.win 2).blk t).view.emb (ix3 u r o))
  refine (Tile.stored_apply (iblk m c 0 t) (iblk m c 1 t) u r o).trans ?_
  unfold offsetProduct
  refine Finset.sum_congr rfl fun c' _ => ?_
  have hu : u.val = 0 := by omega
  -- the tile's row r is row (10000·slab + r) of the same offset in the whole array, channel for channel
  have h0 : ((cfg0.win 0).blk t).view.emb (ix3 (0 : Fin 1) r c')
      = ix3 ((((cfg0.win 2).blk t).view.emb (ix3 u r o)) 0) ((((cfg0.win 2).blk t).view.emb (ix3 u r o)) 1) c' := by
    funext a; apply Fin.ext
    match a with
    | ⟨0, _⟩ => show win0_0.index t (0 : Fin 3) * 1 + 1 * (0 : ℕ) = win0_2.index t (0 : Fin 3) * 1 + 1 * u.val; omega
    | ⟨1, _⟩ => show win0_0.index t (1 : Fin 3) * 10000 + 1 * r.val = win0_2.index t (1 : Fin 3) * 10000 + 1 * r.val; omega
    | ⟨2, _⟩ => show win0_0.index t (2 : Fin 3) * 64 + 1 * c'.val = c'.val; omega
  -- the weight block is the offset's whole matrix
  have h1 : ((cfg0.win 1).blk t).view.emb (ix3 (0 : Fin 1) c' o)
      = ix3 ((((cfg0.win 2).blk t).view.emb (ix3 u r o)) 0) c' ((((cfg0.win 2).blk t).view.emb (ix3 u r o)) 2) := by
    funext a; apply Fin.ext
    match a with
    | ⟨0, _⟩ => show win0_1.index t (0 : Fin 3) * 1 + 1 * (0 : ℕ) = win0_2.index t (0 : Fin 3) * 1 + 1 * u.val; omega
    | ⟨1, _⟩ => show win0_1.index t (1 : Fin 3) * 64 + 1 * c'.val = c'.val; omega
    | ⟨2, _⟩ => show win0_1.index t (2 : Fin 3) * 64 + 1 * o.val = win0_2.index t (2 : Fin 3) * 64 + 1 * o.val; omega
  exact congrArg₂ (fun a b : EReal => a * b) (congrArg (rowsArr m c) h0) (congrArg (matsArr m c) h1)

/-- An index of the result is in point `t`'s block iff each coordinate is in the block's range on its axis. -/
theorem mem_block (t : Fin cfg0.N) (i : S27x50000x64.Idx) :
    i ∈ ((cfg0.win 2).blk t).view.set ↔ ∀ a : Fin 3, win0_2.index t a * S1x10000x64.size a ≤ (i a).val
      ∧ (i a).val < win0_2.index t a * S1x10000x64.size a + S1x10000x64.size a := by
  show i ∈ ((View.whole main_v10).slice (win0_2.rect t)).set ↔ _
  rw [View.set_slice_whole, Rect.mem_set_unit]
  exact Iff.rfl

/-- Every entry of the result lies in the block of the point at its offset and its row's slab. -/
theorem covered (i : S27x50000x64.Idx) :
    ∃ t : Fin cfg0.N, (cfg0.win 2).flush t = true ∧ i ∈ ((cfg0.win 2).blk t).view.set := by
  have hi0 : (i 0).val < 27 := (i 0).isLt
  have hi1 : (i 1).val < 50000 := (i 1).isLt
  have hi2 : (i 2).val < 64 := (i 2).isLt
  obtain ⟨t, ht⟩ := every_slab ⟨(i 0).val, hi0⟩ ⟨(i 1).val / 10000, by omega⟩
  have q0 : win0_2.index t (0 : Fin 3) = (i 0).val := congrFun ht 0
  have q1 : win0_2.index t (1 : Fin 3) = (i 1).val / 10000 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 10000 ≤ (i 1).val ∧ (i 1).val < win0_2.index t (1 : Fin 3) * 10000 + 10000; omega
  | ⟨2, _⟩ => show win0_2.index t (2 : Fin 3) * 64 ≤ (i 2).val ∧ (i 2).val < win0_2.index t (2 : Fin 3) * 64 + 64; omega

/-- After the region the result array is the offset product of the operand arrays. -/
theorem product_array (c : Dev nD) :
    (dats m 0 c).arrAt 2 cfg0.N = offsetProduct (rowsArr m c) (matsArr m c) :=
  (dats m 0 c).arrAt_eq_of_cover 2 _ (fun t _ => written_back m c t) covered

end Cert.KernelIdeal.Region

end
-- ==== Proof.KernelResult.lean ====
/-
  The kernel program's result as ONE function of its five arguments: look up and regroup the input rows, take the offset
  product with the (narrowed) weights, scatter-add the product rows into zeros and add the bias row. The frame run names
  what the region leaves in its result array and what the lines after the region make of it; the region's array is the
  offset product of the operands as the region finds them, and those are the gathered rows and the narrowed weights.
-/
import proofs.«128913_j88373247082550_1_alg».proof.Proof.HostSides
import proofs.«128913_j88373247082550_1_alg».proof.Proof.RegionResult

noncomputable section

namespace Cert.KernelIdeal.Result

open Cert.KernelIdeal Cert.KernelIdeal.Gen Idealize.ShloMosaic Idealize.ShloMosaic.TcCoe
open Idealize.SL.Sem Cert.SparseConv

/-- The sparse convolution of the input sites `x` with the weights `wts` along the rulebook (`inIdx`, `outIdx`),
    plus `bias`. -/
def value (x : (⟨S150000x64, .f32⟩ : BufTy).Contents (Elt Ideal)) (wts : (⟨S27x64x64, .f32⟩ : BufTy).Contents (Elt Ideal))
    (bias : (⟨S64, .f32⟩ : BufTy).Contents (Elt Ideal)) (inIdx outIdx : (⟨S1350000, .i32⟩ : BufTy).Contents (Elt Ideal)) :
    (⟨S150000x64, .f32⟩ : BufTy).Contents (Elt Ideal) :=
  Host.scattered (offsetProduct (Host.gatheredRows x inIdx) (Host.narrowed wts)) bias outIdx

variable (m : (ℓ : Loc nD τ sig) → Buf (Elt Ideal) ℓ) (ρ : Dev nD → PrngReg)

/-- What the lines after the region leave in the result buffer. -/
theorem result_value (c : Dev nD) :
    Pipeline.afterTail₀ cfgs (dats m) 0 (V0 m) [hostOps1] c main_v22
      = value (m ((c : Thread nD τ).loc main_arg0)) (m ((c : Thread nD τ).loc main_arg1)) (m ((c : Thread nD τ).loc main_arg2))
          (m ((c : Thread nD τ).loc main_arg3)) (m ((c : Thread nD τ).loc main_arg4)) := by
  rw [Host.result_after m c, Region.product_array m c]
  show Host.scattered (offsetProduct (V m c main_v9) (V m c main_v1)) _ _ = _
  rw [Host.rows_found m c, Host.mats_found m c]
  rfl

/-- Every weakly fair execution of the kernel program terminates with its result at `value` of the arguments, and the
    arguments unchanged. -/
theorem run : θ_run defs (onTc (τ := τ) (main (F := Ideal))) ⟨m, fun _ => 0, ρ⟩ fun r => ∀ c : Dev nD,
      r.2.mem ((c.tc : Thread nD τ).loc main_v22)
        = value (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v22 (Pipeline.mem_restRefs_of main_v22 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.ReferenceResult.lean ====
/-
  The reference's grouped product. jnp's einsum 'krc,kco->kro' lowers to one dot_general batched over the offset axis
  (left axis 0 with right axis 0) and contracting the channel axis (left axis 2 with right axis 1). Over the extended
  reals, read at (k, r, o), that is the sum over the channel c of g[k, r, c] · w[k, c, o]: the offset product.
-/
import proofs.«128913_j88373247082550_1_alg».proof.Proof.Gen.ReferenceIdeal.Read
import proofs.«128913_j88373247082550_1_alg».proof.Proof.OffsetProduct

noncomputable section

open scoped BigOperators

namespace Cert.ReferenceIdeal.Result

open Cert.ReferenceIdeal Cert.ReferenceIdeal.Gen Cert.ReferenceIdeal.Read Idealize.ShloMosaic Idealize.ShloMosaic.ValueIdx
open Cert.SparseConv

/-- The batched dot_general of the gathered rows with the weights is the offset product, entry by entry: the batch
    axis carries the offset on both operands, the free axes carry the rule and the output channel, and the one
    contracted axis is the input channel. -/
theorem batched_dot (g : Rows.Idx → EReal) (w : Mats.Idx → EReal) :
    Host.dotGeneral (F := Ideal) (φ₁ := .f32) (φ₂ := .f32) dot_S27x50000x64_S27x64x64_S27x50000x64_2_1_1_2_0_0 none g w
      = offsetProduct g w := by
  funext i
  simp only [Host.dotGeneral]
  rw [Ideal.dotGeneral_apply, ← Equiv.sum_comp (contrEquiv1 dot_S27x50000x64_S27x64x64_S27x50000x64_2_1_1_2_0_0 64 rfl rfl).symm]
  unfold offsetProduct
  refine Finset.sum_congr rfl fun k _ => ?_
  have hk := contrEquiv1_symm_val dot_S27x50000x64_S27x64x64_S27x50000x64_2_1_1_2_0_0 64 rfl rfl k
  have el : dot_S27x50000x64_S27x64x64_S27x50000x64_2_1_1_2_0_0.lhsIdx i
      ((contrEquiv1 dot_S27x50000x64_S27x64x64_S27x50000x64_2_1_1_2_0_0 64 rfl rfl).symm k) = ix3 (i 0) (i 1) k :=
    funext fun a => Fin.ext (by
      match a with
      | ⟨0, _⟩ => exact lhs_main_v8_0 _ _
      | ⟨1, _⟩ => exact lhs_main_v8_1 _ _
      | ⟨2, _⟩ => exact (lhs_main_v8_2 _ _).trans hk)
  have er : dot_S27x50000x64_S27x64x64_S27x50000x64_2_1_1_2_0_0.rhsIdx i
      ((contrEquiv1 dot_S27x50000x64_S27x64x64_S27x50000x64_2_1_1_2_0_0 64 rfl rfl).symm k) = ix3 (i 0) k (i 2) :=
    funext fun a => Fin.ext (by
      match a with
      | ⟨0, _⟩ => exact rhs_main_v8_0 _ _
      | ⟨1, _⟩ => exact (rhs_main_v8_1 _ _).trans hk
      | ⟨2, _⟩ => exact rhs_main_v8_2 _ _)
  rw [el, er]
  rfl

end Cert.ReferenceIdeal.Result

end
-- ==== Proof.Bridge.lean ====
/-
  The two programs compute one function. Line by line the reference does what the kernel program does around its
  region — the same index wrap, the same lookup, the same regrouping, the same scatter-add into zeros, the same bias
  row — except that it never narrows to bf16 (no change of value over the extended reals) and that it takes the grouped
  product as one batched dot_general, which is the offset product the region computes tile by tile.
-/
import proofs.«128913_j88373247082550_1_alg».proof.Proof.KernelResult
import proofs.«128913_j88373247082550_1_alg».proof.Proof.ReferenceResult

noncomputable section

namespace Cert.Bridge

open Idealize.ShloMosaic

/-- The reference's result term is the kernel program's `value` of the same arguments. -/
theorem reference_value (x0 : (⟨Cert.ReferenceIdeal.S150000x64, .f32⟩ : BufTy).Contents (Elt Ideal))
    (x1 : (⟨Cert.ReferenceIdeal.S27x64x64, .f32⟩ : BufTy).Contents (Elt Ideal))
    (x2 : (⟨Cert.ReferenceIdeal.S64, .f32⟩ : BufTy).Contents (Elt Ideal))
    (x3 x4 : (⟨Cert.ReferenceIdeal.S1350000, .i32⟩ : BufTy).Contents (Elt Ideal)) :
    Cert.ReferenceIdeal.Read.val_main_v20 (F := Ideal) x0 x1 x2 x3 x4 = Cert.KernelIdeal.Result.value x0 x1 x2 x3 x4 := by
  unfold Cert.ReferenceIdeal.Read.val_main_v20 Cert.ReferenceIdeal.Read.val_main_v17 Cert.ReferenceIdeal.Read.val_main_v10
    Cert.ReferenceIdeal.Read.val_main_v8
  rw [Cert.ReferenceIdeal.Result.batched_dot]
  rfl

end Cert.Bridge

end
-- ==== Proof.lean ====
/-
  Rulebook sparse 3-D convolution, kernel against reference, over the extended reals.

  Both programs look up one input row per rule (1350000 rules: 27 kernel offsets × 50000), multiply every row by the
  64×64 weight matrix of its offset, add every product row into the output site its rule names (starting from zeros),
  and add the bias row. They differ in two places only. The kernel program narrows the input sites and the weights to
  bf16 before the product, which changes no value over the extended reals. And it takes the product in a grid of
  27 × 5 tiles of 10000 rows each, a plain 10000×64 by 64×64 product per tile into a zero accumulator, where the
  reference takes one dot_general batched over the offsets. Entry (k, r, o) of either is Σ_c g[k, r, c] · w[k, c, o]: the
  same sum, so no finiteness of the inputs is used, and everything around the product is the same array code applied
  to the same arrays.

  The frames of the two kernel programs are the generated ones; the reference's frame is its generated run with the
  result dropped; the idealization rewrote nothing, so `preserves` is trivial.
-/
import proofs.«128913_j88373247082550_1_alg».proof.Defs
import proofs.«128913_j88373247082550_1_alg».proof.Proof.Gen.Kernel
import proofs.«128913_j88373247082550_1_alg».proof.Proof.Gen.Kernel.Skeleton
import proofs.«128913_j88373247082550_1_alg».proof.Proof.Gen.Kernel.Launch
import proofs.«128913_j88373247082550_1_alg».proof.Proof.Gen.Kernel.Points
import proofs.«128913_j88373247082550_1_alg».proof.Proof.Gen.Kernel.Frame
import proofs.«128913_j88373247082550_1_alg».proof.Proof.Gen.KernelIdeal
import proofs.«128913_j88373247082550_1_alg».proof.Proof.Gen.KernelIdeal.Skeleton
import proofs.«128913_j88373247082550_1_alg».proof.Proof.Gen.KernelIdeal.Launch
import proofs.«128913_j88373247082550_1_alg».proof.Proof.Gen.KernelIdeal.Points
import proofs.«128913_j88373247082550_1_alg».proof.Proof.Gen.KernelIdeal.Frame
import proofs.«128913_j88373247082550_1_alg».proof.Proof.Gen.ReferenceIdeal
import proofs.«128913_j88373247082550_1_alg».proof.Proof.Gen.ReferenceIdeal.Run
import proofs.«128913_j88373247082550_1_alg».proof.Proof.Gen.ReferenceIdeal.Read
import proofs.«128913_j88373247082550_1_alg».proof.Proof.Gen.Pre_finite_inputs
import proofs.«128913_j88373247082550_1_alg».proof.Proof.Bridge
import Idealize.ShloMosaic.Adequacy
import Idealize.ShloMosaic.Init

noncomputable section

namespace Cert.Proof

open Idealize.ShloMosaic Idealize.SL.Sem

/-- The reference runs, and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the sparse convolution of those arguments
    in their result buffers. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.Bridge.reference_value _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
